-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S16x4096 .f32) (main_arg4 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S8192x4096 : Shape := ⟨2, ![8192, 4096]⟩
abbrev S1x4096 : Shape := ⟨2, ![1, 4096]⟩
abbrev S1024x1024 : Shape := ⟨2, ![1024, 1024]⟩
abbrev S512x1024 : Shape := ⟨2, ![512, 1024]⟩
abbrev S16x1024 : Shape := ⟨2, ![16, 1024]⟩
abbrev S512x16 : Shape := ⟨2, ![512, 16]⟩
abbrev S1x512 : Shape := ⟨2, ![1, 512]⟩
abbrev S1024x512 : Shape := ⟨2, ![1024, 512]⟩
abbrev S1024x16 : Shape := ⟨2, ![1024, 16]⟩
abbrev S16x512 : Shape := ⟨2, ![16, 512]⟩

abbrev nBuf : Space → Nat
  | .hbm => 9
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S16x1024, .f32⟩
  | .local _ .vmem, ⟨5, _⟩ => ⟨S16x1024, .f32⟩
  | .local _ .vmem, ⟨6, _⟩ => ⟨S512x16, .f32⟩
  | .local _ .vmem, ⟨7, _⟩ => ⟨S512x16, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x16, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v24 : BitVec 1 := Scalar.cmpi .eq arg2 c3_i32
  let v25 : BitVec 32 := Scalar.extui v24
  let c0_i32_15 : BitVec 32 := 0#32
  let v26 : BitVec 1 := Scalar.cmpi .ne v25 c0_i32_15
  v26

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S16x1024_S16x1024_0_0 : ∀ a, (![0, 0] : Fin 2 → Nat) a + S16x1024.size a ≤ S16x1024.size a
  h_S16x1024 : 0 < S16x1024.numel
  transposes_S512x1024_p1_0_S1024x512 : S512x1024.Transposes [1, 0] S1024x512
  transposes_S16x1024_p1_0_S1024x16 : S16x1024.Transposes [1, 0] S1024x16
  inb_S512x16_S512x16_0_0 : ∀ a, (![0, 0] : Fin 2 → Nat) a + S512x16.size a ≤ S512x16.size a
  h_S512x16 : 0 < S512x16.numel
  transposes_S512x16_p1_0_S16x512 : S512x16.Transposes [1, 0] S16x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S8192x4096_S4x2048x4096 : S8192x4096.ShapeCasts S4x2048x4096
  dot_S1024x1024_S1024x512_S1024x512_1_0_0_1_n_n_wf : DotDims.WF S1024x1024 S1024x512 S1024x512 [1] [0] [0] [1] [] []
  dot_S1024x1024_S1024x16_S1024x16_1_0_0_1_n_n_wf : DotDims.WF S1024x1024 S1024x16 S1024x16 [1] [0] [0] [1] [] []
  dot_S1024x16_S16x512_S1024x512_1_0_0_1_n_n_wf : DotDims.WF S1024x16 S16x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x4096.size a
  hwx0_2 : ∀ i : grid0.Coords, EltTy.bits .f32 = 32 ∨ (Rect.block (s := S16x4096) S16x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x16.size a ≤ S4096x16.size a
  hwx0_3 : ∀ i : grid0.Coords, EltTy.bits .f32 = 32 ∨ (Rect.block (s := S4096x16) S512x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S8192x4096.size a
  hwx0_5 : ∀ i : grid0.Coords, EltTy.bits .f32 = 32 ∨ (Rect.block (s := S8192x4096) S1024x512.size (cc0_transform_5 i) (hinb0_5 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf
def dot_S1024x16_S16x512_S1024x512_1_0_0_1_n_n : DotDims S1024x16 S16x512 S1024x512 where
  lhsContracting := [1]
  rhsContracting := [0]
  lhsNonContracting := [0]
  rhsNonContracting := [1]
  lhsBatch := []
  rhsBatch := []
  wf := dot_S1024x16_S16x512_S1024x512_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S4x2048x16 : Shape := ⟨3, ![4, 2048, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S4x2048x16, .f32⟩
  | .hbm, ⟨10, _⟩ => ⟨S4x2048x4096, .f32⟩
  | .hbm, ⟨11, _⟩ => ⟨S_, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.KPieces.lean ====
/-
  What one run of the kernel body leaves behind, case by case, as values.
  The body keeps two accumulators across the four contraction blocks of a tile: `acc` (1024 × 512, the base product) and
  `xa` (1024 × 16, the down projection).  At the first block (case A) both are reset to zero and then get the block's
  product added; at a middle block (case B) and at the last (case C) the block's product is added to what the point
  before left; at the last block the output tile is also stored, computed from the accumulators AFTER this update.
-/
import proofs.«114910_j5506148073539_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First block: the base accumulator holds `0 + x_blk · w_blkᵀ` (the reset, read back, then the update). -/
theorem acc_A (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S16x1024 .f32) (harg5 : arg5.IsWhole) (arg6 : Memref sig .tc .vmem S512x16 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x16 .f32) (harg10 : arg10.IsWhole) (hc0 : cond0_0 i) (hc1 : ¬cond0_1 i) (x0 : Vec F S1024x1024 .f32) (x1 : Vec F S512x1024 .f32) (x2 : Vec F S16x1024 .f32) (x3 : Vec F S512x16 .f32) (x4 : Vec F S1x512 .f32) :
    sout0_A_0 c i arg3 harg3 arg4 harg4 arg5 harg5 arg6 harg6 arg7 harg7 arg8 harg8 arg9 harg9 arg10 harg10 hc0 hc1 x0 x1 x2 x3 x4 = k0_pay4 x0 x1 k0_pay1 := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x512) hz, View.readCov_unit_zero (S := S1024x512) _ hz]
  simp only [View.readAt_eq_ld, harg3.read_unread, harg4.read_unread, harg5.read_unread, harg6.read_unread, harg7.read_unread, harg9.read_unread, harg10.read_unread, View.ld_unit_zero (S := S1024x1024) hz, View.ld_unit_zero (S := S512x1024) hz, View.ld_unit_zero (S := S16x1024) hz, View.ld_unit_zero (S := S512x16) hz, View.ld_unit_zero (S := S1x512) hz, View.ld_unit_zero (S := S1024x512) hz, View.ld_unit_zero (S := S1024x16) hz]

/-- First block: the down-projection accumulator holds `0 + x_blk · a_blkᵀ`. -/
theorem xa_A (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S16x1024 .f32) (harg5 : arg5.IsWhole) (arg6 : Memref sig .tc .vmem S512x16 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x16 .f32) (harg10 : arg10.IsWhole) (hc0 : cond0_0 i) (hc1 : ¬cond0_1 i) (x0 : Vec F S1024x1024 .f32) (x1 : Vec F S512x1024 .f32) (x2 : Vec F S16x1024 .f32) (x3 : Vec F S512x16 .f32) (x4 : Vec F S1x512 .f32) :
    sout0_A_1 c i arg3 harg3 arg4 harg4 arg5 harg5 arg6 harg6 arg7 harg7 arg8 harg8 arg9 harg9 arg10 harg10 hc0 hc1 x0 x1 x2 x3 x4 = k0_pay5 x0 x2 k0_pay2 := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x16) hz, View.readCov_unit_zero (S := S1024x16) _ hz]
  simp only [View.readAt_eq_ld, harg3.read_unread, harg4.read_unread, harg5.read_unread, harg6.read_unread, harg7.read_unread, harg9.read_unread, harg10.read_unread, View.ld_unit_zero (S := S1024x1024) hz, View.ld_unit_zero (S := S512x1024) hz, View.ld_unit_zero (S := S16x1024) hz, View.ld_unit_zero (S := S512x16) hz, View.ld_unit_zero (S := S1x512) hz, View.ld_unit_zero (S := S1024x512) hz, View.ld_unit_zero (S := S1024x16) hz]

/-- Middle block: the base accumulator holds what it held plus `x_blk · w_blkᵀ`. -/
theorem acc_B (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S16x1024 .f32) (harg5 : arg5.IsWhole) (arg6 : Memref sig .tc .vmem S512x16 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x16 .f32) (harg10 : arg10.IsWhole) (hc0 : ¬cond0_0 i) (hc1 : ¬cond0_1 i) (x0 : Vec F S1024x1024 .f32) (x1 : Vec F S512x1024 .f32) (x2 : Vec F S16x1024 .f32) (x3 : Vec F S512x16 .f32) (x4 : Vec F S1x512 .f32) (xs0 : Vec F S1024x512 .f32) (xs1 : Vec F S1024x16 .f32) :
    sout0_B_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg4.read_unread, harg5.read_unread, harg6.read_unread, harg7.read_unread, harg9.read_unread, harg10.read_unread, View.ld_unit_zero (S := S1024x1024) hz, View.ld_unit_zero (S := S512x1024) hz, View.ld_unit_zero (S := S16x1024) hz, View.ld_unit_zero (S := S512x16) hz, View.ld_unit_zero (S := S1x512) hz, View.ld_unit_zero (S := S1024x512) hz, View.ld_unit_zero (S := S1024x16) hz]

/-- Middle block: the down-projection accumulator holds what it held plus `x_blk · a_blkᵀ`. -/
theorem xa_B (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S16x1024 .f32) (harg5 : arg5.IsWhole) (arg6 : Memref sig .tc .vmem S512x16 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x16 .f32) (harg10 : arg10.IsWhole) (hc0 : ¬cond0_0 i) (hc1 : ¬cond0_1 i) (x0 : Vec F S1024x1024 .f32) (x1 : Vec F S512x1024 .f32) (x2 : Vec F S16x1024 .f32) (x3 : Vec F S512x16 .f32) (x4 : Vec F S1x512 .f32) (xs0 : Vec F S1024x512 .f32) (xs1 : Vec F S1024x16 .f32) :
    sout0_B_1 c i arg3 harg3 arg4 harg4 arg5 harg5 arg6 harg6 arg7 harg7 arg8 harg8 arg9 harg9 arg10 harg10 hc0 hc1 x0 x1 x2 x3 x4 xs0 xs1 = k0_pay5 x0 x2 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg4.read_unread, harg5.read_unread, harg6.read_unread, harg7.read_unread, harg9.read_unread, harg10.read_unread, View.ld_unit_zero (S := S1024x1024) hz, View.ld_unit_zero (S := S512x1024) hz, View.ld_unit_zero (S := S16x1024) hz, View.ld_unit_zero (S := S512x16) hz, View.ld_unit_zero (S := S1x512) hz, View.ld_unit_zero (S := S1024x512) hz, View.ld_unit_zero (S := S1024x16) hz]

/-- Last block: the base accumulator, updated as at a middle block. -/
theorem acc_C (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S16x1024 .f32) (harg5 : arg5.IsWhole) (arg6 : Memref sig .tc .vmem S512x16 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x16 .f32) (harg10 : arg10.IsWhole) (hc0 : ¬cond0_0 i) (hc1 : cond0_1 i) (x0 : Vec F S1024x1024 .f32) (x1 : Vec F S512x1024 .f32) (x2 : Vec F S16x1024 .f32) (x3 : Vec F S512x16 .f32) (x4 : Vec F S1x512 .f32) (xs0 : Vec F S1024x512 .f32) (xs1 : Vec F S1024x16 .f32) :
    sout0_C_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg9.read_unread, harg10.read_unread, View.ld_unit_zero (S := S1024x1024) hz, View.ld_unit_zero (S := S512x1024) hz, View.ld_unit_zero (S := S16x1024) hz, View.ld_unit_zero (S := S512x16) hz, View.ld_unit_zero (S := S1x512) hz, View.ld_unit_zero (S := S1024x512) hz, View.ld_unit_zero (S := S1024x16) hz]

/-- Last block: the down-projection accumulator, updated as at a middle block. -/
theorem xa_C (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S16x1024 .f32) (harg5 : arg5.IsWhole) (arg6 : Memref sig .tc .vmem S512x16 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x16 .f32) (harg10 : arg10.IsWhole) (hc0 : ¬cond0_0 i) (hc1 : cond0_1 i) (x0 : Vec F S1024x1024 .f32) (x1 : Vec F S512x1024 .f32) (x2 : Vec F S16x1024 .f32) (x3 : Vec F S512x16 .f32) (x4 : Vec F S1x512 .f32) (xs0 : Vec F S1024x512 .f32) (xs1 : Vec F S1024x16 .f32) :
    sout0_C_1 c i arg3 harg3 arg4 harg4 arg5 harg5 arg6 harg6 arg7 harg7 arg8 harg8 arg9 harg9 arg10 harg10 hc0 hc1 x0 x1 x2 x3 x4 xs0 xs1 = k0_pay5 x0 x2 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg9.read_unread, harg10.read_unread, View.ld_unit_zero (S := S1024x1024) hz, View.ld_unit_zero (S := S512x1024) hz, View.ld_unit_zero (S := S16x1024) hz, View.ld_unit_zero (S := S512x16) hz, View.ld_unit_zero (S := S1x512) hz, View.ld_unit_zero (S := S1024x512) hz, View.ld_unit_zero (S := S1024x16) hz]

/-- Last block: the output tile, from the two accumulators as this point's update leaves them. -/
theorem tile_C (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S16x1024 .f32) (harg5 : arg5.IsWhole) (arg6 : Memref sig .tc .vmem S512x16 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x16 .f32) (harg10 : arg10.IsWhole) (hc0 : ¬cond0_0 i) (hc1 : cond0_1 i) (x0 : Vec F S1024x1024 .f32) (x1 : Vec F S512x1024 .f32) (x2 : Vec F S16x1024 .f32) (x3 : Vec F S512x16 .f32) (x4 : Vec F S1x512 .f32) (xs0 : Vec F S1024x512 .f32) (xs1 : Vec F S1024x16 .f32) :
    out0_C_5 c i arg3 harg3 arg4 harg4 arg5 harg5 arg6 harg6 arg7 harg7 arg8 harg8 arg9 harg9 arg10 harg10 hc0 hc1 x0 x1 x2 x3 x4 xs0 xs1 = k0_pay6 x3 (k0_pay5 x0 x2 xs1) x4 (k0_pay4 x0 x1 xs0) := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg9.read_unread, harg10.read_unread, View.ld_unit_zero (S := S1024x1024) hz, View.ld_unit_zero (S := S512x1024) hz, View.ld_unit_zero (S := S16x1024) hz, View.ld_unit_zero (S := S512x16) hz, View.ld_unit_zero (S := S1x512) hz, View.ld_unit_zero (S := S1024x512) hz, View.ld_unit_zero (S := S1024x16) hz, View.readCov_unit_zero (S := S1024x16) _ hz, View.readCov_unit_zero (S := S1024x512) _ hz]

end Cert.KernelIdeal.Pieces

end
-- ==== Proof.LibPlainMatmul.lean ====
/-
  A plain matrix product read at an entry.  For the dimension numbers of an `M × K` by `K × N` product
  (`DotDims.plain`: the left operand contracted on its columns, the right on its rows, no batch axis), a
  `tpu.matmul` into the zero splat is, at the extended reals and at row `r`, column `c`, the sum over
  `k : Fin K` of the left operand at `(r, k)` times the right at `(k, c)`.  Nothing here names a program.
-/
import Idealize.ShloMosaic.PureOps.Ideal.Laws
import Idealize.ShloMosaic.Lib.ValueIdx

namespace Cert.PlainMatmul

open Idealize.ShloMosaic Idealize.ShloMosaic.ValueIdx

/-- The left operand's index of a plain product at output `(r, c)` and contraction coordinate `k` is `(r, k)`. -/
theorem lhsIdx_plain {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 r c) _).trans hk

/-- The right operand's index there is `(k, c)`. -/
theorem rhsIdx_plain {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 r c) _).trans hk
  | ⟨1, _⟩ => rfl

/-- A plain `tpu.matmul` into zeros, at entry `(r, c)`, is `∑ k, a (r, k) * b (k, c)` on the extended reals. -/
theorem matmul_plain_zero_apply {M K N : ℕ} {φ₁ φ₂ : FTy}
    (a : FVec Ideal ⟨2, ![M, K]⟩ φ₁) (b : FVec Ideal ⟨2, ![K, N]⟩ φ₂) (prec : Option ContractPrecision) (r : Fin M) (c : Fin N) :
    matmul (DotDims.plain M K N) prec a b (constant ⟨2, ![M, N]⟩ .f32 0x00000000#32) (ix2 r c)
      = ∑ k : Fin K, a (ix2 r k) * b (ix2 k c) := by
  show FloatOps.matmul (DotDims.plain M K N) prec a b (constant ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.PlainMatmul
-- ==== Proof.KPayAt.lean ====
/-
  The body's stored values at an entry, over the extended reals.  A change of float format is the identity there, a
  transpose swaps the two coordinates, and a `tpu.matmul` into zeros is the plain sum over the contracted axis.  So
    the base update at (p, q)   is  acc (p, q) + ∑ₖ x (p, k) · w (q, k),
    the down update at (p, ρ)   is  xa (p, ρ) + ∑ₖ x (p, k) · a (ρ, k),
    the output tile at (p, q)   is  (acc (p, q) + bias (0, q)) + (∑ᵨ xa (p, ρ) · bm (q, ρ)) · 2,
  and the two resets store zero.
-/
import proofs.«114910_j5506148073539_1_alg».proof.Proof.Gen.KernelIdeal.Skeleton
import proofs.«114910_j5506148073539_1_alg».proof.Proof.LibPlainMatmul
import Idealize.ShloMosaic.Lib.Pipeline.Value
import Idealize.ShloMosaic.Lib.ValueIdx

noncomputable section

open scoped BigOperators

namespace Cert.KernelIdeal.PayAt

open Cert.KernelIdeal Cert.KernelIdeal.Gen Idealize.ShloMosaic Idealize.ShloMosaic.ValueIdx

/-- The three printed products are plain `M × K` by `K × N` products. -/
theorem dot_base : dot_S1024x1024_S1024x512_S1024x512_1_0_0_1_n_n = DotDims.plain 1024 1024 512 := rfl
theorem dot_down : dot_S1024x1024_S1024x16_S1024x16_1_0_0_1_n_n = DotDims.plain 1024 1024 16 := rfl
theorem dot_up : dot_S1024x16_S16x512_S1024x512_1_0_0_1_n_n = DotDims.plain 1024 16 512 := rfl

/-- A transposed matrix at `(k, q)` is the matrix at `(q, k)`. -/
theorem transpose_swap {M N : ℕ} {α : Type} (x : (⟨2, ![M, N]⟩ : Shape).Idx → α)
    (h : (⟨2, ![M, N]⟩ : Shape).Transposes [1, 0] ⟨2, ![N, M]⟩) (k : Fin N) (q : Fin M) :
    transpose ⟨2, ![N, M]⟩ [1, 0] x h (ix2 k q) = x (ix2 q k) :=
  transpose_apply [1, 0] x h (ix2 k q) (ix2 q k) (fun b => by match b with | ⟨0, _⟩ => rfl | ⟨1, _⟩ => rfl)

/-- The reset of the base accumulator stores zero. -/
theorem reset_acc (j : S1024x512.Idx) : k0_pay1 (F := Ideal) j = 0 := by
  unfold k0_pay1
  rw [shapeCast_self]
  exact Ideal.ofBits_zero_f32

/-- The reset of the down-projection accumulator stores zero. -/
theorem reset_xa (j : S1024x16.Idx) : k0_pay2 (F := Ideal) j = 0 := by
  unfold k0_pay2
  rw [shapeCast_self]
  exact Ideal.ofBits_zero_f32

/-- The base update at `(p, q)`. -/
theorem acc_update (x : Vec Ideal S1024x1024 .f32) (w : Vec Ideal S512x1024 .f32) (acc : Vec Ideal S1024x512 .f32)
    (p : Fin 1024) (q : Fin 512) :
    k0_pay4 (F := Ideal) x w acc (ix2 p q) = acc (ix2 p q) + ∑ k : Fin 1024, x (ix2 p k) * w (ix2 q k) := by
  unfold k0_pay4 k0_pay3
  rw [shapeCast_self, shapeCast_self, addf_apply, dot_base, Cert.PlainMatmul.matmul_plain_zero_apply]
  refine congrArg (acc (ix2 p q) + ·) (Finset.sum_congr rfl fun k _ => ?_)
  rw [truncf_apply, transpose_swap, truncf_apply]

/-- The down-projection update at `(p, ρ)`. -/
theorem xa_update (x : Vec Ideal S1024x1024 .f32) (a : Vec Ideal S16x1024 .f32) (xa : Vec Ideal S1024x16 .f32)
    (p : Fin 1024) (ρ : Fin 16) :
    k0_pay5 (F := Ideal) x a xa (ix2 p ρ) = xa (ix2 p ρ) + ∑ k : Fin 1024, x (ix2 p k) * a (ix2 ρ k) := by
  unfold k0_pay5 k0_pay3
  rw [shapeCast_self, shapeCast_self, addf_apply, dot_down, Cert.PlainMatmul.matmul_plain_zero_apply]
  refine congrArg (xa (ix2 p ρ) + ·) (Finset.sum_congr rfl fun k _ => ?_)
  rw [truncf_apply, transpose_swap, truncf_apply]

/-- The bias row broadcast down the tile reads the row at the column. -/
theorem bias_bcast (bias : Vec Ideal S1x512 .f32) (h : S1x512.Broadcasts S1024x512) (p : Fin 1024) (q : Fin 512) :
    broadcastTo S1024x512 bias h (ix2 p q) = bias (ix2 (0 : Fin 1) q) :=
  broadcastTo_apply bias h (ix2 p q) (ix2 (0 : Fin 1) q) (fun a => by
    match a with
    | ⟨0, _⟩ => show (0 : ℕ) = if (1 : ℕ) = 1 then 0 else _; rw [if_pos rfl]
    | ⟨1, _⟩ => show q.val = if (512 : ℕ) = 1 then 0 else q.val; rw [if_neg (by decide)])

/-- The output tile at `(p, q)`. -/
theorem tile (bm : Vec Ideal S512x16 .f32) (xa : Vec Ideal S1024x16 .f32) (bias : Vec Ideal S1x512 .f32)
    (acc : Vec Ideal S1024x512 .f32) (p : Fin 1024) (q : Fin 512) :
    k0_pay6 (F := Ideal) bm xa bias acc (ix2 p q)
      = (acc (ix2 p q) + bias (ix2 (0 : Fin 1) q))
          + (∑ ρ : Fin 16, xa (ix2 p ρ) * bm (ix2 q ρ)) * Ideal.ofBits .f32 0x40000000#32 := by
  unfold k0_pay6
  rw [addf_apply, addf_apply, mulf_apply, shapeCast_self, shapeCast_self, bias_bcast, dot_up,
    Cert.PlainMatmul.matmul_plain_zero_apply]
  refine congrArg (fun s => (acc (ix2 p q) + bias (ix2 (0 : Fin 1) q)) + s * _) (Finset.sum_congr rfl fun ρ _ => ?_)
  rw [truncf_apply, transpose_swap, truncf_apply]

end Cert.KernelIdeal.PayAt

end
-- ==== Proof.LoraSpec.lean ====
/-
  LoRA linear layer, the arithmetic only.  The result at row `r`, output feature `o` is
      (∑_d x[r,d]·W[o,d] + b[o]) + (∑_ρ (∑_d x[r,d]·A[ρ,d]) · B[o,ρ]) · 2 .
  The kernel reaches the two inner sums over `d : Fin 4096` as a running sum over four column blocks of 1024,
  started from zero at the first block.  On the extended reals this needs only `0 + a = a` and the
  re-indexing of a sum over `Fin 4096` as a sum over `Fin 4 × Fin 1024`: no finiteness of the inputs.
  Nothing here names a program.
-/
import Idealize.ShloMosaic.PureOps.Ideal.Laws
import Idealize.ShloMosaic.Lib.ValueIdx
import Idealize.ShloMosaic.Lib.Pipeline.Value

noncomputable section

open scoped BigOperators

namespace Cert.Lora

open Idealize.ShloMosaic Idealize.ShloMosaic.ValueIdx

/-! ## Grid point `n` of the 8 × 8 × 4 grid, row-major: which rows and columns its blocks hold -/

/-- Row `p` of the `x` block (and of the output block) at point `n`: block row `n / 32`. -/
def rowX (n : ℕ) (p : Fin 1024) : Fin 8192 := ⟨n / 32 % 8 * 1024 + p.val, by have := p.isLt; omega⟩
/-- Row `q` of the `W` block (the `B` block, the bias block; column `q` of the output block) at point `n`: block `n / 4 % 8`. -/
def rowW (n : ℕ) (q : Fin 512) : Fin 4096 := ⟨n / 4 % 8 * 512 + q.val, by have := q.isLt; omega⟩
/-- Column `e` of the contraction block at point `n`: block `n % 4`. -/
def colK (n : ℕ) (e : Fin 1024) : Fin 4096 := ⟨n % 4 * 1024 + e.val, by have := e.isLt; omega⟩

/-! ## The running sum a scratch accumulator holds -/

/-- What an accumulator holds after point `n` when it is reset to zero at the points `≡ 0 (mod 4)` and point `n`
    adds `b n`. -/
def runSum (b : ℕ → EReal) : ℕ → EReal
  | 0 => 0 + b 0
  | n + 1 => if (n + 1) % 4 = 0 then 0 + b (n + 1) else runSum b n + b (n + 1)

theorem runSum_reset (b : ℕ → EReal) (n : ℕ) (h : n % 4 = 0) : runSum b n = 0 + b n := by
  cases n with
  | zero => rfl
  | succ n => exact if_pos h

theorem runSum_step (b : ℕ → EReal) (n : ℕ) (h : ¬(n + 1) % 4 = 0) : runSum b (n + 1) = runSum b n + b (n + 1) :=
  if_neg h

/-- At the last point of a group of four the accumulator holds the four terms added in order onto zero. -/
theorem runSum_last (b : ℕ → EReal) (n : ℕ) (h : n % 4 = 3) :
    runSum b n = (((0 + b (n - 3)) + b (n - 2)) + b (n - 1)) + b n := by
  obtain ⟨a, rfl⟩ : ∃ a, n = a + 3 := ⟨n - 3, by omega⟩
  rw [runSum_step b (a + 2) (by omega), runSum_step b (a + 1) (by omega), runSum_step b a (by omega),
    runSum_reset b a (by omega)]
  rfl

/-! ## Four blocks of 1024 make the sum over 4096 -/

theorem sum_four_blocks (f : Fin 4096 → EReal) :
    ∑ d : Fin 4096, f d
      = (((0 + ∑ e : Fin 1024, f (colK 0 e)) + ∑ e : Fin 1024, f (colK 1 e)) + ∑ e : Fin 1024, f (colK 2 e))
          + ∑ e : Fin 1024, f (colK 3 e) := by
  rw [zero_add]
  have h := (finProdFinEquiv (m := 4) (n := 1024)).sum_comp f
  rw [← h, Fintype.sum_prod_type, Fin.sum_univ_four]
  have e : ∀ (a : Fin 4) (y : Fin 1024), (finProdFinEquiv (a, y) : Fin 4096) = colK a.val y := fun a y => by
    apply Fin.ext
    show y.val + 1024 * a.val = a.val % 4 * 1024 + y.val
    have := a.isLt
    omega
  simp only [e]
  rfl

/-- The four points of a tile share their rows and feature columns and visit the contraction blocks 0, 1, 2, 3 in
    order: at the last of them, the running sum of the blocks' sums is the whole sum over `Fin 4096`. -/
theorem runSum_tile (f : Fin 8192 → Fin 4096 → Fin 4096 → EReal) (p : Fin 1024) (q : Fin 512) (n : ℕ) (h : n % 4 = 3) :
    runSum (fun n' => ∑ k : Fin 1024, f (rowX n' p) (rowW n' q) (colK n' k)) n = ∑ d : Fin 4096, f (rowX n p) (rowW n q) d := by
  obtain ⟨a, rfl⟩ : ∃ a, n = 4 * a + 3 := ⟨n / 4, by omega⟩
  rw [runSum_last _ _ h, sum_four_blocks]
  have hx : ∀ j, j ≤ 3 → rowX (4 * a + 3 - j) p = rowX (4 * a + 3) p := fun j hj => Fin.ext (by simp only [rowX]; omega)
  have hw : ∀ j, j ≤ 3 → rowW (4 * a + 3 - j) q = rowW (4 * a + 3) q := fun j hj => Fin.ext (by simp only [rowW]; omega)
  have hk3 : ∀ k, colK (4 * a + 3 - 3) k = colK 0 k := fun k => Fin.ext (by simp only [colK]; omega)
  have hk2 : ∀ k, colK (4 * a + 3 - 2) k = colK 1 k := fun k => Fin.ext (by simp only [colK]; omega)
  have hk1 : ∀ k, colK (4 * a + 3 - 1) k = colK 2 k := fun k => Fin.ext (by simp only [colK]; omega)
  have hk0 : ∀ k, colK (4 * a + 3) k = colK 3 k := fun k => Fin.ext (by simp only [colK]; omega)
  simp only [hx 3 (by omega), hx 2 (by omega), hx 1 (by omega), hw 3 (by omega), hw 2 (by omega), hw 1 (by omega), hk3, hk2, hk1, hk0]

/-! ## The result, as the kernel's region sees the arrays (rows flattened) and as the reference does -/

/-- The scale `alpha / rank = 2`, the same word on both sides. -/
abbrev two : Ideal .f32 := Ideal.ofBits .f32 0x40000000#32

abbrev S3 : Shape := ⟨3, ![4, 2048, 4096]⟩
abbrev S2 : Shape := ⟨2, ![8192, 4096]⟩
abbrev SW : Shape := ⟨2, ![4096, 4096]⟩
abbrev SA : Shape := ⟨2, ![16, 4096]⟩
abbrev SB : Shape := ⟨2, ![4096, 16]⟩
abbrev Sb1 : Shape := ⟨1, ![4096]⟩
abbrev Sb2 : Shape := ⟨2, ![1, 4096]⟩

section
variable (X : FVec Ideal S2 .f32) (W : FVec Ideal SW .f32) (b2 : FVec Ideal Sb2 .f32) (A : FVec Ideal SA .f32) (B : FVec Ideal SB .f32)

/-- The base projection `x · Wᵀ` at row `r`, feature `o`. -/
def base (r : Fin 8192) (o : Fin 4096) : Ideal .f32 := ∑ d : Fin 4096, X (ix2 r d) * W (ix2 o d)
/-- The down projection `x · Aᵀ` at row `r`, rank coordinate `ρ`. -/
def down (r : Fin 8192) (ρ : Fin 16) : Ideal .f32 := ∑ d : Fin 4096, X (ix2 r d) * A (ix2 ρ d)
/-- The layer's output over flattened rows. -/
def out2 : FVec Ideal S2 .f32 := fun j =>
  (base X W (j 0) (j 1) + b2 (ix2 0 (j 1))) + (∑ ρ : Fin 16, down X A (j 0) ρ * B (ix2 (j 1) ρ)) * two
end

/-- The layer's output as the reference states it, over `[batch, seq, feature]`. -/
def out3 (x : FVec Ideal S3 .f32) (W : FVec Ideal SW .f32) (b : FVec Ideal Sb1 .f32) (A : FVec Ideal SA .f32) (B : FVec Ideal SB .f32) :
    FVec Ideal S3 .f32 := fun i =>
  ((∑ d : Fin 4096, x (ix3 (i 0) (i 1) d) * W (ix2 (i 2) d)) + b (ix1 (i 2)))
    + (∑ ρ : Fin 16, (∑ d : Fin 4096, x (ix3 (i 0) (i 1) d) * A (ix2 ρ d)) * B (ix2 (i 2) ρ)) * two

/-- Flattened row `a · 2048 + s`. -/
def flatRow (a : Fin 4) (s : Fin 2048) : Fin 8192 := ⟨a.val * 2048 + s.val, by have := a.isLt; have := s.isLt; omega⟩

theorem reshape_x_apply (x : FVec Ideal S3 .f32) (h : S3.ShapeCasts S2) (a : Fin 4) (s : Fin 2048) (d : Fin 4096) :
    shapeCast S2 x h (ix2 (flatRow a s) d) = x (ix3 a s d) :=
  shapeCast_apply x h _ _ (by rw [Shape.rowMajor_val_two, Shape.rowMajor_val_three]; rfl)

theorem reshape_b_apply (b : FVec Ideal Sb1 .f32) (h : Sb1.ShapeCasts Sb2) (o : Fin 4096) :
    shapeCast Sb2 b h (ix2 (0 : Fin 1) o) = b (ix1 o) :=
  shapeCast_apply b h _ _ (by rw [Shape.rowMajor_val_two, Shape.rowMajor_val_one]; show o.val = 0 * 4096 + o.val; omega)

/-- Flattening the rows going in and unflattening them coming out turns the 2-D form into the reference's. -/
theorem reshape_out2 (x : FVec Ideal S3 .f32) (W : FVec Ideal SW .f32) (b : FVec Ideal Sb1 .f32) (A : FVec Ideal SA .f32) (B : FVec Ideal SB .f32)
    (h1 : S3.ShapeCasts S2) (h2 : Sb1.ShapeCasts Sb2) (h3 : S2.ShapeCasts S3) :
    shapeCast S3 (out2 (shapeCast S2 x h1) W (shapeCast Sb2 b h2) A B) h3 = out3 x W b A B := by
  funext i
  obtain ⟨a, s, o, rfl⟩ : ∃ (a : Fin 4) (s : Fin 2048) (o : Fin 4096), i = ix3 a s o := ⟨i 0, i 1, i 2, eq_ix3 i⟩
  rw [shapeCast_apply _ h3 (ix3 a s o) (ix2 (flatRow a s) o) (by rw [Shape.rowMajor_val_two, Shape.rowMajor_val_three]; rfl)]
  show (base _ W (flatRow a s) o + shapeCast Sb2 b h2 (ix2 0 o)) + (∑ ρ : Fin 16, down _ A (flatRow a s) ρ * B (ix2 o ρ)) * two = _
  unfold base down out3
  simp only [reshape_x_apply, reshape_b_apply]

end Cert.Lora

end
-- ==== Proof.KBlocks.lean ====
/-
  The grid is 8 × 8 × 4, visited row-major: point `t` is tile row `t / 32`, tile column `t / 4 % 8`, contraction
  block `t % 4`.  Each window's block at a point is a rectangle of its array, so a block entry is an array entry at
  "block index × block size + coordinate"; the block indices are decided once over the 256 points.
-/
import proofs.«114910_j5506148073539_1_alg».proof.Proof.Gen.KernelIdeal.Frame
import proofs.«114910_j5506148073539_1_alg».proof.Proof.LoraSpec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.Lora

variable {F : FTy → Type} [FloatOps F]
variable (m : (ℓ : Loc nD τ sig) → Buf (Elt F) ℓ)

/-- The `x` block at a point: rows of block-row `t / 32`, columns of contraction block `t % 4`. -/
abbrev xarr (c : Dev nD) : Vec F S8192x4096 .f32 := V m c main_v0
abbrev xblk (c : Dev nD) (t : Fin cfg0.N) : Vec F S1024x1024 .f32 := iblk m c 0 t

theorem idx_0 : ∀ t : Fin cfg0.N, win0_0.index t (0 : Fin 2) = t.val / 32 % 8 ∧ win0_0.index t (1 : Fin 2) = t.val % 4 :=
  (by decide +kernel : ∀ t : Fin grid0.N, win0_0.index t (0 : Fin 2) = t.val / 32 % 8 ∧ win0_0.index t (1 : Fin 2) = t.val % 4)

theorem xblk_apply (c : Dev nD) (t : Fin cfg0.N) (p : Fin 1024) (k : Fin 1024) :
    xblk m c t (ix2 p k) = xarr m c (ix2 (rowX t.val p) (colK t.val k)) := by
  show iblk m c 0 t (ix2 p k) = V m c main_v0 _
  unfold iblk
  rw [View.read_apply]
  show V m c main_v0 _ = V m c main_v0 _
  refine congrArg (V m c main_v0) (funext fun a => Fin.ext ?_)
  match a with
  | ⟨0, _⟩ =>
    show win0_0.index t (0 : Fin 2) * 1024 + 1 * p.val = t.val / 32 % 8 * 1024 + p.val
    rw [(idx_0 t).1]; omega
  | ⟨1, _⟩ =>
    show win0_0.index t (1 : Fin 2) * 1024 + 1 * k.val = t.val % 4 * 1024 + k.val
    rw [(idx_0 t).2]; omega

/-- The `W` block: output features of block `t / 4 % 8`, columns of contraction block `t % 4`. -/
abbrev warr (c : Dev nD) : Vec F S4096x4096 .f32 := V m c main_arg1
abbrev wblk (c : Dev nD) (t : Fin cfg0.N) : Vec F S512x1024 .f32 := iblk m c 1 t

theorem idx_1 : ∀ t : Fin cfg0.N, win0_1.index t (0 : Fin 2) = t.val / 4 % 8 ∧ win0_1.index t (1 : Fin 2) = t.val % 4 :=
  (by decide +kernel : ∀ t : Fin grid0.N, win0_1.index t (0 : Fin 2) = t.val / 4 % 8 ∧ win0_1.index t (1 : Fin 2) = t.val % 4)

theorem wblk_apply (c : Dev nD) (t : Fin cfg0.N) (q : Fin 512) (k : Fin 1024) :
    wblk m c t (ix2 q k) = warr m c (ix2 (rowW t.val q) (colK t.val k)) := by
  show iblk m c 1 t (ix2 q k) = V m c main_arg1 _
  unfold iblk
  rw [View.read_apply]
  show V m c main_arg1 _ = V m c main_arg1 _
  refine congrArg (V m c main_arg1) (funext fun a => Fin.ext ?_)
  match a with
  | ⟨0, _⟩ =>
    show win0_1.index t (0 : Fin 2) * 512 + 1 * q.val = t.val / 4 % 8 * 512 + q.val
    rw [(idx_1 t).1]; omega
  | ⟨1, _⟩ =>
    show win0_1.index t (1 : Fin 2) * 1024 + 1 * k.val = t.val % 4 * 1024 + k.val
    rw [(idx_1 t).2]; omega

/-- The `A` block: all sixteen rank rows, columns of contraction block `t % 4`. -/
abbrev aarr (c : Dev nD) : Vec F S16x4096 .f32 := V m c main_arg3
abbrev ablk (c : Dev nD) (t : Fin cfg0.N) : Vec F S16x1024 .f32 := iblk m c 2 t

theorem idx_2 : ∀ t : Fin cfg0.N, win0_2.index t (0 : Fin 2) = 0 ∧ win0_2.index t (1 : Fin 2) = t.val % 4 :=
  (by decide +kernel : ∀ t : Fin grid0.N, win0_2.index t (0 : Fin 2) = 0 ∧ win0_2.index t (1 : Fin 2) = t.val % 4)

theorem ablk_apply (c : Dev nD) (t : Fin cfg0.N) (r : Fin 16) (k : Fin 1024) :
    ablk m c t (ix2 r k) = aarr m c (ix2 (r) (colK t.val k)) := by
  show iblk m c 2 t (ix2 r k) = V m c main_arg3 _
  unfold iblk
  rw [View.read_apply]
  show V m c main_arg3 _ = V m c main_arg3 _
  refine congrArg (V m c main_arg3) (funext fun a => Fin.ext ?_)
  match a with
  | ⟨0, _⟩ =>
    show win0_2.index t (0 : Fin 2) * 16 + 1 * r.val = r.val
    rw [(idx_2 t).1]; omega
  | ⟨1, _⟩ =>
    show win0_2.index t (1 : Fin 2) * 1024 + 1 * k.val = t.val % 4 * 1024 + k.val
    rw [(idx_2 t).2]; omega

/-- The `B` block: output features of block `t / 4 % 8`, all sixteen rank columns. -/
abbrev barr (c : Dev nD) : Vec F S4096x16 .f32 := V m c main_arg4
abbrev bblk (c : Dev nD) (t : Fin cfg0.N) : Vec F S512x16 .f32 := iblk m c 3 t

theorem idx_3 : ∀ t : Fin cfg0.N, win0_3.index t (0 : Fin 2) = t.val / 4 % 8 ∧ win0_3.index t (1 : Fin 2) = 0 :=
  (by decide +kernel : ∀ t : Fin grid0.N, win0_3.index t (0 : Fin 2) = t.val / 4 % 8 ∧ win0_3.index t (1 : Fin 2) = 0)

theorem bblk_apply (c : Dev nD) (t : Fin cfg0.N) (q : Fin 512) (r : Fin 16) :
    bblk m c t (ix2 q r) = barr m c (ix2 (rowW t.val q) (r)) := by
  show iblk m c 3 t (ix2 q r) = V m c main_arg4 _
  unfold iblk
  rw [View.read_apply]
  show V m c main_arg4 _ = V m c main_arg4 _
  refine congrArg (V m c main_arg4) (funext fun a => Fin.ext ?_)
  match a with
  | ⟨0, _⟩ =>
    show win0_3.index t (0 : Fin 2) * 512 + 1 * q.val = t.val / 4 % 8 * 512 + q.val
    rw [(idx_3 t).1]; omega
  | ⟨1, _⟩ =>
    show win0_3.index t (1 : Fin 2) * 16 + 1 * r.val = r.val
    rw [(idx_3 t).2]; omega

/-- The bias block: the one row, output features of block `t / 4 % 8`. -/
abbrev biasarr (c : Dev nD) : Vec F S1x4096 .f32 := V m c main_v1
abbrev biasblk (c : Dev nD) (t : Fin cfg0.N) : Vec F S1x512 .f32 := iblk m c 4 t

theorem idx_4 : ∀ t : Fin cfg0.N, win0_4.index t (0 : Fin 2) = 0 ∧ win0_4.index t (1 : Fin 2) = t.val / 4 % 8 :=
  (by decide +kernel : ∀ t : Fin grid0.N, win0_4.index t (0 : Fin 2) = 0 ∧ win0_4.index t (1 : Fin 2) = t.val / 4 % 8)

theorem biasblk_apply (c : Dev nD) (t : Fin cfg0.N) (z : Fin 1) (q : Fin 512) :
    biasblk m c t (ix2 z q) = biasarr m c (ix2 (z) (rowW t.val q)) := by
  show iblk m c 4 t (ix2 z q) = V m c main_v1 _
  unfold iblk
  rw [View.read_apply]
  show V m c main_v1 _ = V m c main_v1 _
  refine congrArg (V m c main_v1) (funext fun a => Fin.ext ?_)
  match a with
  | ⟨0, _⟩ =>
    show win0_4.index t (0 : Fin 2) * 1 + 1 * z.val = z.val
    rw [(idx_4 t).1]; omega
  | ⟨1, _⟩ =>
    show win0_4.index t (1 : Fin 2) * 512 + 1 * q.val = t.val / 4 % 8 * 512 + q.val
    rw [(idx_4 t).2]; omega

/-- The output tile's block index: tile row `t / 32`, tile column `t / 4 % 8`. -/
theorem idx_5 : ∀ t : Fin cfg0.N, win0_5.index t (0 : Fin 2) = t.val / 32 % 8 ∧ win0_5.index t (1 : Fin 2) = t.val / 4 % 8 :=
  (by decide +kernel : ∀ t : Fin grid0.N, win0_5.index t (0 : Fin 2) = t.val / 32 % 8 ∧ win0_5.index t (1 : Fin 2) = t.val / 4 % 8)

end Cert.KernelIdeal.Blocks

end
-- ==== Proof.KAccum.lean ====
/-
  The two accumulators over the grid.  Point `t` adds to the base accumulator, at tile entry (p, q), the product of
  row `p` of its `x` block with row `q` of its `W` block — a sum over the 1024 columns of contraction block `t % 4` —
  and to the down-projection accumulator, at (p, ρ), the same with row `ρ` of its `A` block.  Both are reset at the
  points `≡ 0 (mod 4)`.  So after point `t` each holds the running sum `Lora.runSum` of those block sums (induction on
  the point), and at a point `≡ 3 (mod 4)`, where the four blocks of a tile are in, the whole sums over `Fin 4096`:
  the output tile stored there is the layer's output at the tile's rows and feature columns.
-/
import proofs.«114910_j5506148073539_1_alg».proof.Proof.KPieces
import proofs.«114910_j5506148073539_1_alg».proof.Proof.KPayAt
import proofs.«114910_j5506148073539_1_alg».proof.Proof.KBlocks

noncomputable section

open scoped BigOperators

open Idealize.ShloMosaic Idealize.ShloMosaic.TcCoe Idealize.SL.Sem Idealize.ShloMosaic.ValueIdx

namespace Cert.KernelIdeal.Accum

open Cert.KernelIdeal Cert.KernelIdeal.Gen Cert.KernelIdeal.Blocks Cert.Lora

variable (m : (ℓ : Loc nD τ sig) → Buf (Elt Ideal) ℓ)

/-- What point `n` adds to the base accumulator at tile entry (p, q). -/
def baseTerm (c : Dev nD) (p : Fin 1024) (q : Fin 512) (n : ℕ) : EReal :=
  ∑ k : Fin 1024, xarr m c (ix2 (rowX n p) (colK n k)) * warr m c (ix2 (rowW n q) (colK n k))
/-- What point `n` adds to the down-projection accumulator at (p, ρ). -/
def downTerm (c : Dev nD) (p : Fin 1024) (r : Fin 16) (n : ℕ) : EReal :=
  ∑ k : Fin 1024, xarr m c (ix2 (rowX n p) (colK n k)) * aarr m c (ix2 r (colK n k))

/-! ## One point: the reset case, the middle case, the last case -/

theorem acc_reset (c : Dev nD) (t : Fin cfg0.N) (h0 : t.val % 4 = 0) (h1 : ¬t.val % 4 = 3) (p : Fin 1024) (q : Fin 512) :
    (outsAt0 m c t.val t.isLt).2.1 (ix2 p q) = 0 + baseTerm m c p q t.val := by
  rw [outsAt0_A m c t h0 h1]
  dsimp only
  refine (congrFun (Pieces.acc_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (xblk m c t) (wblk m c t) (ablk m c t) (bblk m c t) (biasblk m c t)) (ix2 p q)).trans ?_
  refine (PayAt.acc_update (xblk m c t) (wblk m c t) (k0_pay1 (F := Ideal)) p q).trans ?_
  rw [PayAt.reset_acc]
  refine congrArg (0 + ·) (Finset.sum_congr rfl fun k _ => ?_)
  rw [xblk_apply m c t p k, wblk_apply m c t q k]

theorem xa_reset (c : Dev nD) (t : Fin cfg0.N) (h0 : t.val % 4 = 0) (h1 : ¬t.val % 4 = 3) (p : Fin 1024) (r : Fin 16) :
    (outsAt0 m c t.val t.isLt).2.2 (ix2 p r) = 0 + downTerm m c p r t.val := by
  rw [outsAt0_A m c t h0 h1]
  dsimp only
  refine (congrFun (Pieces.xa_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (xblk m c t) (wblk m c t) (ablk m c t) (bblk m c t) (biasblk m c t)) (ix2 p r)).trans ?_
  refine (PayAt.xa_update (xblk m c t) (ablk m c t) (k0_pay2 (F := Ideal)) p r).trans ?_
  rw [PayAt.reset_xa]
  refine congrArg (0 + ·) (Finset.sum_congr rfl fun k _ => ?_)
  rw [xblk_apply m c t p k, ablk_apply m c t r k]

theorem acc_mid (c : Dev nD) (t : Fin cfg0.N) (h0 : ¬t.val % 4 = 0) (h1 : ¬t.val % 4 = 3) (p : Fin 1024) (q : Fin 512) :
    (outsAt0 m c t.val t.isLt).2.1 (ix2 p q) = (outsAt0 m c (t.val - 1) (Nat.lt_of_le_of_lt (Nat.sub_le _ _) t.isLt)).2.1 (ix2 p q) + baseTerm m c p q t.val := by
  rw [outsAt0_B m c t h0 h1]
  dsimp only
  refine (congrFun (Pieces.acc_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (xblk m c t) (wblk m c t) (ablk m c t) (bblk m c t) (biasblk m c t) (outsAt0 m c (t.val - 1) (Nat.lt_of_le_of_lt (Nat.sub_le _ _) t.isLt)).2.1 (outsAt0 m c (t.val - 1) (Nat.lt_of_le_of_lt (Nat.sub_le _ _) t.isLt)).2.2) (ix2 p q)).trans ?_
  refine (PayAt.acc_update (xblk m c t) (wblk m c t) (outsAt0 m c (t.val - 1) (Nat.lt_of_le_of_lt (Nat.sub_le _ _) t.isLt)).2.1 p q).trans ?_
  refine congrArg ((outsAt0 m c (t.val - 1) (Nat.lt_of_le_of_lt (Nat.sub_le _ _) t.isLt)).2.1 (ix2 p q) + ·) (Finset.sum_congr rfl fun k _ => ?_)
  rw [xblk_apply m c t p k, wblk_apply m c t q k]

theorem xa_mid (c : Dev nD) (t : Fin cfg0.N) (h0 : ¬t.val % 4 = 0) (h1 : ¬t.val % 4 = 3) (p : Fin 1024) (r : Fin 16) :
    (outsAt0 m c t.val t.isLt).2.2 (ix2 p r) = (outsAt0 m c (t.val - 1) (Nat.lt_of_le_of_lt (Nat.sub_le _ _) t.isLt)).2.2 (ix2 p r) + downTerm m c p r t.val := by
  rw [outsAt0_B m c t h0 h1]
  dsimp only
  refine (congrFun (Pieces.xa_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (xblk m c t) (wblk m c t) (ablk m c t) (bblk m c t) (biasblk m c t) (outsAt0 m c (t.val - 1) (Nat.lt_of_le_of_lt (Nat.sub_le _ _) t.isLt)).2.1 (outsAt0 m c (t.val - 1) (Nat.lt_of_le_of_lt (Nat.sub_le _ _) t.isLt)).2.2) (ix2 p r)).trans ?_
  refine (PayAt.xa_update (xblk m c t) (ablk m c t) (outsAt0 m c (t.val - 1) (Nat.lt_of_le_of_lt (Nat.sub_le _ _) t.isLt)).2.2 p r).trans ?_
  refine congrArg ((outsAt0 m c (t.val - 1) (Nat.lt_of_le_of_lt (Nat.sub_le _ _) t.isLt)).2.2 (ix2 p r) + ·) (Finset.sum_congr rfl fun k _ => ?_)
  rw [xblk_apply m c t p k, ablk_apply m c t r k]

theorem acc_last (c : Dev nD) (t : Fin cfg0.N) (h0 : ¬t.val % 4 = 0) (h1 : t.val % 4 = 3) (p : Fin 1024) (q : Fin 512) :
    (outsAt0 m c t.val t.isLt).2.1 (ix2 p q) = (outsAt0 m c (t.val - 1) (Nat.lt_of_le_of_lt (Nat.sub_le _ _) t.isLt)).2.1 (ix2 p q) + baseTerm m c p q t.val := by
  rw [outsAt0_C m c t h0 h1]
  dsimp only
  refine (congrFun (Pieces.acc_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (xblk m c t) (wblk m c t) (ablk m c t) (bblk m c t) (biasblk m c t) (outsAt0 m c (t.val - 1) (Nat.lt_of_le_of_lt (Nat.sub_le _ _) t.isLt)).2.1 (outsAt0 m c (t.val - 1) (Nat.lt_of_le_of_lt (Nat.sub_le _ _) t.isLt)).2.2) (ix2 p q)).trans ?_
  refine (PayAt.acc_update (xblk m c t) (wblk m c t) (outsAt0 m c (t.val - 1) (Nat.lt_of_le_of_lt (Nat.sub_le _ _) t.isLt)).2.1 p q).trans ?_
  refine congrArg ((outsAt0 m c (t.val - 1) (Nat.lt_of_le_of_lt (Nat.sub_le _ _) t.isLt)).2.1 (ix2 p q) + ·) (Finset.sum_congr rfl fun k _ => ?_)
  rw [xblk_apply m c t p k, wblk_apply m c t q k]

theorem xa_last (c : Dev nD) (t : Fin cfg0.N) (h0 : ¬t.val % 4 = 0) (h1 : t.val % 4 = 3) (p : Fin 1024) (r : Fin 16) :
    (outsAt0 m c t.val t.isLt).2.2 (ix2 p r) = (outsAt0 m c (t.val - 1) (Nat.lt_of_le_of_lt (Nat.sub_le _ _) t.isLt)).2.2 (ix2 p r) + downTerm m c p r t.val := by
  rw [outsAt0_C m c t h0 h1]
  dsimp only
  refine (congrFun (Pieces.xa_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (xblk m c t) (wblk m c t) (ablk m c t) (bblk m c t) (biasblk m c t) (outsAt0 m c (t.val - 1) (Nat.lt_of_le_of_lt (Nat.sub_le _ _) t.isLt)).2.1 (outsAt0 m c (t.val - 1) (Nat.lt_of_le_of_lt (Nat.sub_le _ _) t.isLt)).2.2) (ix2 p r)).trans ?_
  refine (PayAt.xa_update (xblk m c t) (ablk m c t) (outsAt0 m c (t.val - 1) (Nat.lt_of_le_of_lt (Nat.sub_le _ _) t.isLt)).2.2 p r).trans ?_
  refine congrArg ((outsAt0 m c (t.val - 1) (Nat.lt_of_le_of_lt (Nat.sub_le _ _) t.isLt)).2.2 (ix2 p r) + ·) (Finset.sum_congr rfl fun k _ => ?_)
  rw [xblk_apply m c t p k, ablk_apply m c t r k]

/-- The tile stored at a last point, from the accumulators as that point leaves them. -/
theorem tile_last (c : Dev nD) (t : Fin cfg0.N) (h0 : ¬t.val % 4 = 0) (h1 : t.val % 4 = 3) (p : Fin 1024) (q : Fin 512) :
    (outsAt0 m c t.val t.isLt).1 (ix2 p q)
      = ((outsAt0 m c t.val t.isLt).2.1 (ix2 p q) + biasarr m c (ix2 (0 : Fin 1) (rowW t.val q)))
          + (∑ r : Fin 16, (outsAt0 m c t.val t.isLt).2.2 (ix2 p r) * barr m c (ix2 (rowW t.val q) r)) * two := by
  rw [outsAt0_C m c t h0 h1]
  dsimp only
  rw [Pieces.tile_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (xblk m c t) (wblk m c t) (ablk m c t) (bblk m c t) (biasblk m c t) (outsAt0 m c (t.val - 1) (Nat.lt_of_le_of_lt (Nat.sub_le _ _) t.isLt)).2.1 (outsAt0 m c (t.val - 1) (Nat.lt_of_le_of_lt (Nat.sub_le _ _) t.isLt)).2.2,
    Pieces.acc_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (xblk m c t) (wblk m c t) (ablk m c t) (bblk m c t) (biasblk m c t) (outsAt0 m c (t.val - 1) (Nat.lt_of_le_of_lt (Nat.sub_le _ _) t.isLt)).2.1 (outsAt0 m c (t.val - 1) (Nat.lt_of_le_of_lt (Nat.sub_le _ _) t.isLt)).2.2,
    Pieces.xa_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (xblk m c t) (wblk m c t) (ablk m c t) (bblk m c t) (biasblk m c t) (outsAt0 m c (t.val - 1) (Nat.lt_of_le_of_lt (Nat.sub_le _ _) t.isLt)).2.1 (outsAt0 m c (t.val - 1) (Nat.lt_of_le_of_lt (Nat.sub_le _ _) t.isLt)).2.2]
  refine (PayAt.tile (bblk m c t) (k0_pay5 (xblk m c t) (ablk m c t) (outsAt0 m c (t.val - 1) (Nat.lt_of_le_of_lt (Nat.sub_le _ _) t.isLt)).2.2) (biasblk m c t)
    (k0_pay4 (xblk m c t) (wblk m c t) (outsAt0 m c (t.val - 1) (Nat.lt_of_le_of_lt (Nat.sub_le _ _) t.isLt)).2.1) p q).trans ?_
  rw [biasblk_apply m c t (0 : Fin 1) q]
  simp only [bblk_apply m c t q]

/-! ## All points: the accumulators hold the running sums -/

theorem scratch_eq (c : Dev nD) : ∀ (n : ℕ) (h : n < cfg0.N),
    (∀ (p : Fin 1024) (q : Fin 512), (outsAt0 m c n h).2.1 (ix2 p q) = runSum (baseTerm m c p q) n)
    ∧ (∀ (p : Fin 1024) (r : Fin 16), (outsAt0 m c n h).2.2 (ix2 p r) = runSum (downTerm m c p r) n)
  | 0, h => ⟨fun p q => acc_reset m c ⟨0, h⟩ rfl (by show ¬0 % 4 = 3; decide) p q,
      fun p r => xa_reset m c ⟨0, h⟩ rfl (by show ¬0 % 4 = 3; decide) p r⟩
  | n + 1, h => by
    have ih := scratch_eq c n (Nat.lt_of_succ_lt h)
    by_cases h0 : (n + 1) % 4 = 0
    · have h1 : ¬(n + 1) % 4 = 3 := by omega
      refine ⟨fun p q => ?_, fun p r => ?_⟩
      · rw [runSum_reset _ _ h0]; exact acc_reset m c ⟨n + 1, h⟩ h0 h1 p q
      · rw [runSum_reset _ _ h0]; exact xa_reset m c ⟨n + 1, h⟩ h0 h1 p r
    · by_cases h1 : (n + 1) % 4 = 3
      · refine ⟨fun p q => ?_, fun p r => ?_⟩
        · rw [runSum_step _ _ h0, ← ih.1 p q]; exact acc_last m c ⟨n + 1, h⟩ h0 h1 p q
        · rw [runSum_step _ _ h0, ← ih.2 p r]; exact xa_last m c ⟨n + 1, h⟩ h0 h1 p r
      · refine ⟨fun p q => ?_, fun p r => ?_⟩
        · rw [runSum_step _ _ h0, ← ih.1 p q]; exact acc_mid m c ⟨n + 1, h⟩ h0 h1 p q
        · rw [runSum_step _ _ h0, ← ih.2 p r]; exact xa_mid m c ⟨n + 1, h⟩ h0 h1 p r

/-- The tile stored at a point `≡ 3 (mod 4)` is the layer's output at the tile's rows and feature columns. -/
theorem tile_value (c : Dev nD) (t : Fin cfg0.N) (h1 : t.val % 4 = 3) (p : Fin 1024) (q : Fin 512) :
    (outsAt0 m c t.val t.isLt).1 (ix2 p q)
      = out2 (xarr m c) (warr m c) (biasarr m c) (aarr m c) (barr m c) (ix2 (rowX t.val p) (rowW t.val q)) := by
  have h0 : ¬t.val % 4 = 0 := by omega
  rw [tile_last m c t h0 h1 p q, (scratch_eq m c t.val t.isLt).1 p q]
  simp only [(scratch_eq m c t.val t.isLt).2 p]
  have eb : runSum (baseTerm m c p q) t.val = base (xarr m c) (warr m c) (rowX t.val p) (rowW t.val q) :=
    runSum_tile (fun r o d => xarr m c (ix2 r d) * warr m c (ix2 o d)) p q t.val h1
  have ed : ∀ r : Fin 16, runSum (downTerm m c p r) t.val = down (xarr m c) (aarr m c) (rowX t.val p) r := fun r =>
    runSum_tile (fun r' _ d => xarr m c (ix2 r' d) * aarr m c (ix2 r d)) p q t.val h1
  rw [eb]
  simp only [ed]
  rfl

end Cert.KernelIdeal.Accum

end
-- ==== Proof.KFinal.lean ====
/-
  From tiles to the array, and out through the last reshape.
  The output window is written back only at the points `≡ 3 (mod 4)`, one per 1024 × 512 tile; the tile stored there is
  the layer's output `Lora.out2` at the tile's rows and feature columns, and the 8 × 8 tiles cover the 8192 × 4096 array
  (entry (r, o) lies in the tile of point `(r / 1024) · 32 + (o / 512) · 4 + 3`).  So the region's result array ends
  holding `out2` of the arrays as the region finds them: the flattened `x`, `W`, the bias as one row, `A`, `B`.  The
  program then unflattens the rows, which turns `out2` into the reference's form `Lora.out3` of the five arguments.
-/
import proofs.«114910_j5506148073539_1_alg».proof.Proof.KAccum
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Blocks Cert.KernelIdeal.Accum Cert.Lora

variable (m : (ℓ : Loc nD τ sig) → Buf (Elt Ideal) ℓ) (ρ : Dev nD → PrngReg)

/-- The layer's output over flattened rows, of the arrays as the region finds them. -/
abbrev tiles (c : Dev nD) : Vec Ideal S8192x4096 .f32 := out2 (xarr m c) (warr m c) (biasarr m c) (aarr m c) (barr m c)

/-- The tile stored at a point `≡ 3 (mod 4)`, at any entry of the tile. -/
theorem tile_at (c : Dev nD) (t : Fin cfg0.N) (h3 : t.val % 4 = 3) (j : S1024x512.Idx) :
    (outsAt0 m c t.val t.isLt).1 j = tiles m c (ix2 (rowX t.val (j 0)) (rowW t.val (j 1))) := by
  obtain ⟨p, q, rfl⟩ : ∃ (p : Fin 1024) (q : Fin 512), j = ix2 p q := ⟨j 0, j 1, eq_ix2 j⟩
  exact tile_value m c t h3 p q

/-- What a writing point writes back is its block of `tiles`. -/
theorem flushed_eq (c : Dev nD) (t : Fin cfg0.N) (hf : (cfg0.win 5).flush t = true) :
    (dats m 0 c).flushed 5 t = ((cfg0.win 5).blk t).view.read (Elt Ideal) (tiles m c) := by
  have h3 : t.val % 4 = 3 := (flush0_5 t).mp hf
  show (cfg0.win 5).cut (grid0.coords t) ((dats m 0 c).after 5 t) = _
  rw [after0_5]
  funext j
  rw [View.read_apply]
  show (outsAt0 m c t.val t.isLt).1 j = tiles m c (((cfg0.win 5).blk t).view.emb j)
  refine (tile_at m c t h3 j).trans (congrArg (tiles m c) (funext fun a => Fin.ext ?_))
  match a with
  | ⟨0, _⟩ =>
    show t.val / 32 % 8 * 1024 + (j 0).val = win0_5.index t (0 : Fin 2) * 1024 + 1 * (j 0).val
    rw [(idx_5 t).1]; omega
  | ⟨1, _⟩ =>
    show t.val / 4 % 8 * 512 + (j 1).val = win0_5.index t (1 : Fin 2) * 512 + 1 * (j 1).val
    rw [(idx_5 t).2]; omega

/-- An entry of the array is in point `t`'s tile iff each coordinate is in the tile's range on its axis. -/
theorem mem_tile (t : Fin cfg0.N) (i : S8192x4096.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v2).slice (win0_5.rect t)).set ↔ _
  rw [View.set_slice_whole, Rect.mem_set_unit]
  exact Iff.rfl

/-- Every entry lies in the tile of a writing point. -/
theorem cover (i : S8192x4096.Idx) : ∃ t : Fin cfg0.N, (cfg0.win 5).flush t = true ∧ i ∈ ((cfg0.win 5).blk t).view.set := by
  have hi0 : (i 0).val < 8192 := (i 0).isLt
  have hi1 : (i 1).val < 4096 := (i 1).isLt
  have hN : cfg0.N = 256 := N_0
  have hlt : (i 0).val / 1024 * 32 + (i 1).val / 512 * 4 + 3 < cfg0.N := by rw [hN]; omega
  refine ⟨⟨(i 0).val / 1024 * 32 + (i 1).val / 512 * 4 + 3, hlt⟩, (flush0_5 _).mpr (by show ((i 0).val / 1024 * 32 + (i 1).val / 512 * 4 + 3) % 4 = 3; omega), ?_⟩
  rw [mem_tile]
  obtain ⟨e0, e1⟩ := idx_5 ⟨(i 0).val / 1024 * 32 + (i 1).val / 512 * 4 + 3, hlt⟩
  intro a
  match a with
  | ⟨0, _⟩ =>
    show win0_5.index ⟨(i 0).val / 1024 * 32 + (i 1).val / 512 * 4 + 3, hlt⟩ (0 : Fin 2) * 1024 ≤ (i 0).val ∧ (i 0).val < win0_5.index ⟨(i 0).val / 1024 * 32 + (i 1).val / 512 * 4 + 3, hlt⟩ (0 : Fin 2) * 1024 + 1024
    rw [e0]; show ((i 0).val / 1024 * 32 + (i 1).val / 512 * 4 + 3) / 32 % 8 * 1024 ≤ (i 0).val ∧ (i 0).val < ((i 0).val / 1024 * 32 + (i 1).val / 512 * 4 + 3) / 32 % 8 * 1024 + 1024
    omega
  | ⟨1, _⟩ =>
    show win0_5.index ⟨(i 0).val / 1024 * 32 + (i 1).val / 512 * 4 + 3, hlt⟩ (1 : Fin 2) * 512 ≤ (i 1).val ∧ (i 1).val < win0_5.index ⟨(i 0).val / 1024 * 32 + (i 1).val / 512 * 4 + 3, hlt⟩ (1 : Fin 2) * 512 + 512
    rw [e1]; show ((i 0).val / 1024 * 32 + (i 1).val / 512 * 4 + 3) / 4 % 8 * 512 ≤ (i 1).val ∧ (i 1).val < ((i 0).val / 1024 * 32 + (i 1).val / 512 * 4 + 3) / 4 % 8 * 512 + 512
    omega

/-- The region's result array after the run. -/
theorem final (c : Dev nD) : (dats m 0 c).arrAt 5 cfg0.N = tiles m c :=
  (dats m 0 c).arrAt_eq_of_cover 5 (tiles m c) (flushed_eq m c) cover

/-! ## The arrays the region finds, and the reshape after it -/

theorem xarr_eq (c : Dev nD) : xarr m c = shapeCast S8192x4096 (m ((c.tc : Thread nD τ).loc main_arg0)) shapeCasts_S4x2048x4096_S8192x4096 := by
  show StableHlo.after hostOps0 (fun b => m (c, b)) (Proc.devRef .tc main_v0) = _
  after_results
  rfl

theorem biasarr_eq (c : Dev nD) : biasarr m c = shapeCast S1x4096 (m ((c.tc : Thread nD τ).loc main_arg2)) shapeCasts_S4096_S1x4096 := by
  show StableHlo.after hostOps0 (fun b => m (c, b)) (Proc.devRef .tc main_v1) = _
  after_results
  rfl

/-- The program's result: the region's result array with its rows unflattened. -/
theorem tail_eq (c : Dev nD) :
    Pipeline.afterTail₀ cfgs (dats m) 0 (V0 m) [hostOps1] c main_v3
      = shapeCast S4x2048x4096 (tiles m c) shapeCasts_S8192x4096_S4x2048x4096 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2) = tiles m c :=
    (Pipeline.withArrays_arr spec0 launch0.win.arr_inj c (V0 m c) (fun w => (dats m 0 c).arrAt w cfg0.N) 5).trans (final m c)
  funext i
  show shapeCast S4x2048x4096 (Pipeline.withArrays (cfgs 0).spec c (V0 m c) (fun w => (dats m 0 c).arrAt w (cfgs 0).N) (Proc.devRef .tc main_v2)) shapeCasts_S8192x4096_S4x2048x4096 i = _
  rw [e]

/-- Unflattened, the region's result is the layer's output of the five arguments as launched. -/
theorem result_eq (c : Dev nD) :
    shapeCast S4x2048x4096 (tiles m c) shapeCasts_S8192x4096_S4x2048x4096
      = out3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show shapeCast S4x2048x4096 (out2 (xarr m c) (warr m c) (biasarr m c) (aarr m c) (barr m c)) _ = _
  rw [xarr_eq m c, biasarr_eq m c, show warr m c = (m ((c.tc : Thread nD τ).loc main_arg1)) from V_main_arg1 m c,
    show aarr m c = (m ((c.tc : Thread nD τ).loc main_arg3)) from V_main_arg3 m c, show barr m c = (m ((c.tc : Thread nD τ).loc main_arg4)) from V_main_arg4 m c]
  exact reshape_out2 _ _ _ _ _ _ _ _

/-- The run, read: the result at the layer's output of the arguments, the arguments unchanged. -/
theorem run : θ_run defs (onTc (τ := τ) (main (F := Ideal))) ⟨m, fun _ => 0, ρ⟩ fun r => ∀ c : Dev nD,
      r.2.mem ((c.tc : Thread nD τ).loc main_v3)
        = out3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v3 (Pipeline.mem_restRefs_of main_v3 (by decide) (by decide))).trans ((tail_eq m c).trans (result_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c)))⟩)
    (run_main m ρ)

end Cert.KernelIdeal.Final

end
-- ==== Proof.RefValue.lean ====
/-
  The reference, read at an entry.  Its ten host operations compose to
      (x · Wᵀ + b) + ((x · Aᵀ) · Bᵀ) · 2
  over `[batch, seq, feature]`; at the extended reals each `dot_general` is the plain sum over its contracted axis,
  and the two broadcasts of the bias read `b` at the feature coordinate.  So the reference's result is `Lora.out3`.
-/
import proofs.«114910_j5506148073539_1_alg».proof.Proof.Gen.ReferenceIdeal.Read
import proofs.«114910_j5506148073539_1_alg».proof.Proof.LoraSpec

noncomputable section

open scoped BigOperators

namespace Cert.ReferenceIdeal.RefValue

open Cert.ReferenceIdeal Cert.ReferenceIdeal.Read Idealize.ShloMosaic Idealize.ShloMosaic.ValueIdx

/-- The reference's result, as a function of the five arguments, is the layer's output entry by entry. -/
theorem result_eq (x : FVec Ideal S4x2048x4096 .f32) (W : FVec Ideal S4096x4096 .f32) (b : FVec Ideal S4096 .f32)
    (A : FVec Ideal S16x4096 .f32) (B : FVec Ideal S4096x16 .f32) :
    val_main_v8 (F := Ideal) x W b A B = Cert.Lora.out3 x W b A B := by
  funext i
  obtain ⟨a, s, o, rfl⟩ : ∃ (a : Fin 4) (s : Fin 2048) (o : Fin 4096), i = ix3 a s o := ⟨i 0, i 1, i 2, eq_ix3 i⟩
  have e0l : ∀ k : Fin 4096, lidx_main_v0 (ix3 a s o) k = ix3 a s k := fun k => funext fun d => by
    match d with | ⟨0, _⟩ => rfl | ⟨1, _⟩ => rfl | ⟨2, _⟩ => rfl
  have e0r : ∀ k : Fin 4096, ridx_main_v0 (ix3 a s o) k = ix2 o k := fun k => funext fun d => by
    match d with | ⟨0, _⟩ => rfl | ⟨1, _⟩ => rfl
  have e5l : ∀ r : Fin 16, lidx_main_v5 (ix3 a s o) r = ix3 a s r := fun r => funext fun d => by
    match d with | ⟨0, _⟩ => rfl | ⟨1, _⟩ => rfl | ⟨2, _⟩ => rfl
  have e5r : ∀ r : Fin 16, ridx_main_v5 (ix3 a s o) r = ix2 o r := fun r => funext fun d => by
    match d with | ⟨0, _⟩ => rfl | ⟨1, _⟩ => rfl
  have e4 : ∀ r : Fin 16, val_main_v4 (F := Ideal) x A (ix3 a s r) = ∑ d : Fin 4096, x (ix3 a s d) * A (ix2 r d) := fun r => by
    rw [val_main_v4_apply]
    refine Finset.sum_congr rfl fun d _ => ?_
    have l : lidx_main_v4 (ix3 a s r) d = ix3 a s d := funext fun e => by
      match e with | ⟨0, _⟩ => rfl | ⟨1, _⟩ => rfl | ⟨2, _⟩ => rfl
    have rr : ridx_main_v4 (ix3 a s r) d = ix2 r d := funext fun e => by
      match e with | ⟨0, _⟩ => rfl | ⟨1, _⟩ => rfl
    rw [l, rr]
  have eb : idx_main_v1 (idx_main_v2 (ix3 a s o)) = ix1 o := funext fun d => by
    match d with | ⟨0, _⟩ => rfl
  rw [val_main_v8_apply, val_main_v3_apply, val_main_v7_apply, val_main_v0_apply, val_main_v2_apply, val_main_v1_apply,
    val_main_v5_apply, val_main_v6_apply, val_main_cst_apply]
  simp only [e4, e0l, e0r, e5l, e5r, eb, Ideal.addf_def, Ideal.mulf_def]
  rfl

end Cert.ReferenceIdeal.RefValue

end
-- ==== Proof.lean ====
/-
  A LoRA linear layer: `out = x · Wᵀ + b + 2 · (x · Aᵀ) · Bᵀ` over f32[4, 2048, 4096], rank 16.

  The kernel flattens the rows, tiles the 8192 × 4096 output into 8 × 8 tiles of 1024 × 512 and walks each tile's
  contraction in four blocks of 1024 columns.  Two accumulators are carried across the four blocks of a tile, reset at
  the first: the base product `x · Wᵀ` (1024 × 512) and the down projection `x · Aᵀ` (1024 × 16).  At the fourth block
  the tile `(acc + b) + (xa · Bᵀ) · 2` is stored.  The reference computes the same three contractions whole.

  Over the extended reals the two are one function of the arguments.  A change of float format is the identity, a
  `tpu.matmul` into zeros is the plain sum over the contracted axis, and the host's `dot_general` is that same sum; what
  is left is that a sum over `Fin 4096` is the four block sums added in order onto zero (`Lora.sum_four_blocks`), which
  uses only `0 + a = a` and re-indexing of a finite sum in a commutative monoid.  No distributive law and no
  cancellation is used, so the precondition that the inputs are finite is never opened.

  Where each part is: `LoraSpec` the arithmetic; `KPieces`, `KPayAt`, `KBlocks` what one run of the body stores, as
  values at an entry of blocks read off the arrays; `KAccum` the accumulators over the grid, by induction on the point;
  `KFinal` tiles to array and the reshape out; `RefValue` the reference read at an entry.  The three frames are the
  generated ones (the reference's is its generated run with the result dropped); the idealization rewrote nothing.
-/
import proofs.«114910_j5506148073539_1_alg».proof.Defs
import proofs.«114910_j5506148073539_1_alg».proof.Proof.Gen.Kernel
import proofs.«114910_j5506148073539_1_alg».proof.Proof.Gen.Kernel.Skeleton
import proofs.«114910_j5506148073539_1_alg».proof.Proof.Gen.Kernel.Launch
import proofs.«114910_j5506148073539_1_alg».proof.Proof.Gen.Kernel.Points
import proofs.«114910_j5506148073539_1_alg».proof.Proof.Gen.Kernel.Frame
import proofs.«114910_j5506148073539_1_alg».proof.Proof.Gen.KernelIdeal
import proofs.«114910_j5506148073539_1_alg».proof.Proof.Gen.KernelIdeal.Skeleton
import proofs.«114910_j5506148073539_1_alg».proof.Proof.Gen.KernelIdeal.Launch
import proofs.«114910_j5506148073539_1_alg».proof.Proof.Gen.KernelIdeal.Points
import proofs.«114910_j5506148073539_1_alg».proof.Proof.Gen.KernelIdeal.Frame
import proofs.«114910_j5506148073539_1_alg».proof.Proof.Gen.ReferenceIdeal
import proofs.«114910_j5506148073539_1_alg».proof.Proof.Gen.ReferenceIdeal.Run
import proofs.«114910_j5506148073539_1_alg».proof.Proof.Gen.ReferenceIdeal.Read
import proofs.«114910_j5506148073539_1_alg».proof.Proof.Gen.Pre_finite_inputs
import proofs.«114910_j5506148073539_1_alg».proof.Proof.KFinal
import proofs.«114910_j5506148073539_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the layer's output `Lora.out3` of the five arguments, which agree. -/
theorem algebraic : Cert.algebraic_KernelIdeal_ReferenceIdeal := by
  intro m ρ m' ρ' _ hagree
  refine ⟨fun c => Cert.Lora.out3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Final.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v8_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
